-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S1x4096 : Shape := ⟨2, ![1, 4096]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x4096 .f32) (main_arg5 : FVec F S1x4096 .f32) (main_arg6 : FVec F S1024x1024 .f32) (main_arg7 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S1024x4096 .f32) (main_arg4 : FVec F S1024x4096 .f32) (main_arg5 : FVec F S1x4096 .f32) (main_arg6 : FVec F S1024x1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_v13 main_v16
-- ==== Kernel.lean ====
abbrev S16384x1024 : Shape := ⟨2, ![16384, 1024]⟩
abbrev S1024x4096 : Shape := ⟨2, ![1024, 4096]⟩
abbrev S1x4096 : Shape := ⟨2, ![1, 4096]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S1024x4096, .f32⟩
  | .hbm, ⟨5, _⟩ => ⟨S1x4096, .f32⟩
  | .hbm, ⟨6, _⟩ => ⟨S1024x1024, .f32⟩
  | .hbm, ⟨7, _⟩ => ⟨S1024, .f32⟩
  | .hbm, ⟨8, _⟩ => ⟨S1024x4096, .bf16⟩
  | .hbm, ⟨9, _⟩ => ⟨S1024x4096, .bf16⟩
  | .hbm, ⟨10, _⟩ => ⟨S1024x1024, .bf16⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x4096, .f32⟩
  | .local _ .vmem, ⟨7, _⟩ => ⟨S1x1024, .f32⟩
  | .local _ .vmem, ⟨8, _⟩ => ⟨S1024x4096, .bf16⟩
  | .local _ .vmem, ⟨9, _⟩ => ⟨S1024x4096, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  broadcasts_S1x1024_S256x1024 : S1x1024.Broadcasts S256x1024
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S1024x1024_S1024x1024_0_0 : ∀ a, (![0, 0] : Fin 2 → Nat) a + S1024x1024.size a ≤ S1024x1024.size a
  inb_S1x1024_S1x1024_0_0 : ∀ a, (![0, 0] : Fin 2 → Nat) a + S1x1024.size a ≤ S1x1024.size a
  shapeCasts_S1x1024_S1x1024 : S1x1024.ShapeCasts S1x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S16384x1024.size a
  hwx0_10 : ∀ i : grid0.Coords, EltTy.bits .f32 = 32 ∨ (Rect.block (s := S16384x1024) S256x1024.size (cc0_transform_10 i) (hinb0_10 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S1x4096 : Shape := ⟨2, ![1, 4096]⟩
abbrev S1024x1024 : Shape := ⟨2, ![1024, 1024]⟩
abbrev S1024 : Shape := ⟨1, ![1024]⟩
abbrev S16384x4096 : Shape := ⟨2, ![16384, 4096]⟩
abbrev S_ : Shape := ⟨0, ![]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S1024x4096, .f32⟩
  | .hbm, ⟨5, _⟩ => ⟨S1x4096, .f32⟩
  | .hbm, ⟨6, _⟩ => ⟨S1024x1024, .f32⟩
  | .hbm, ⟨7, _⟩ => ⟨S1024, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.RowSpec.lean ====
/-
  The sub-LSTM cell, one batch row at a time, over the extended reals.

  For a batch row with input row `x`, hidden row `h` and cell row `c` (each a function of the feature index), input
  weights `K`, recurrent weights `R` (both 1024 × 4096), gate bias `b` (4096), classifier weights `W` (1024 × 1024)
  and classifier bias `bc` (1024):

    gate at column offset `off`, feature `j`  =  σ( Σ_k x k · K k (off + j)  +  Σ_k h k · R k (off + j)  +  b (off + j) )
    with σ y = 1 / (1 + e^(−y)); the four gates i, f, g, o sit at offsets 0, 1024, 2048, 3072;

    new cell     c' j  =  f j · c j + g j − i j                 (subtractive gating)
    new hidden   h' j  =  σ (c' j) − o j
    output       y j   =  Σ_k h' k · W k j  +  bc j

  Every result row depends on the same row of the three data arrays only, so the three result arrays are these row
  functions applied row by row (`cellArr`, `hidArr`, `outArr`).
-/
import Idealize.ShloMosaic.PureOps.Ideal
import Idealize.ShloMosaic.PureOps.Ideal.Laws
import Idealize.ShloMosaic.Lib.ValueIdx

noncomputable section

namespace Cert.SubLstm

open Idealize.ShloMosaic Idealize.ShloMosaic.ValueIdx

/-- Column `off + j` of a 4096-wide array: feature `j` of the gate whose columns start at `off`. -/
abbrev col (off : Nat) (hoff : off + 1024 ≤ 4096) (j : Fin 1024) : Fin 4096 := ⟨off + j.val, by have := j.isLt; omega⟩

/-- One gate's activation at feature `j`: the logistic function of the row's two projections plus the bias. -/
def gate (off : Nat) (hoff : off + 1024 ≤ 4096) (x h : Fin 1024 → EReal) (K R : Fin 1024 → Fin 4096 → EReal)
    (b : Fin 4096 → EReal) (j : Fin 1024) : EReal :=
  Ideal.logistic ((∑ k : Fin 1024, x k * K k (col off hoff j)) + (∑ k : Fin 1024, h k * R k (col off hoff j)) + b (col off hoff j))

/-- The new cell state of a row: forget gate times the old cell, plus the candidate gate, minus the input gate. -/
def cellNew (x h c : Fin 1024 → EReal) (K R : Fin 1024 → Fin 4096 → EReal) (b : Fin 4096 → EReal) (j : Fin 1024) : EReal :=
  gate 1024 (by decide) x h K R b j * c j + gate 2048 (by decide) x h K R b j - gate 0 (by decide) x h K R b j

/-- The new hidden state of a row: the logistic function of the new cell minus the output gate. -/
def hidNew (x h c : Fin 1024 → EReal) (K R : Fin 1024 → Fin 4096 → EReal) (b : Fin 4096 → EReal) (j : Fin 1024) : EReal :=
  Ideal.logistic (cellNew x h c K R b j) - gate 3072 (by decide) x h K R b j

/-- The classifier's output of a row: the new hidden row through `W`, plus the bias. -/
def outNew (x h c : Fin 1024 → EReal) (K R : Fin 1024 → Fin 4096 → EReal) (b : Fin 4096 → EReal)
    (W : Fin 1024 → Fin 1024 → EReal) (bc : Fin 1024 → EReal) (j : Fin 1024) : EReal :=
  (∑ k : Fin 1024, hidNew x h c K R b k * W k j) + bc j

/-- The f32 word of `1.0` denotes the number one. -/
theorem ofBits_one_f32 : Ideal.ofBits .f32 0x3F800000#32 = 1 := by
  simp [Ideal.ofBits, Ideal.ieee, -EReal.coe_mul]; norm_num

/-- The logistic function spelt with the f32 word of `1.0` for both ones. -/
theorem logistic_eq_div (y : EReal) :
    Ideal.div (Ideal.ofBits .f32 0x3F800000#32) (Ideal.ofBits .f32 0x3F800000#32 + Ideal.exp (-y)) = Ideal.logistic y := by
  rw [ofBits_one_f32]; rfl

/-- The gate with the bias added before the recurrent projection: the same number, addition on the extended reals
    being commutative and associative. -/
theorem gate_bias_first (off : Nat) (hoff : off + 1024 ≤ 4096) (x h : Fin 1024 → EReal) (K R : Fin 1024 → Fin 4096 → EReal)
    (b : Fin 4096 → EReal) (j : Fin 1024) :
    Ideal.logistic ((∑ k : Fin 1024, x k * K k (col off hoff j)) + b (col off hoff j) + (∑ k : Fin 1024, h k * R k (col off hoff j)))
      = gate off hoff x h K R b j := by
  unfold gate; rw [add_right_comm]

/-! ## The three result arrays, row by row -/

/-- Row `r` of a 16384 × 1024 array. -/
abbrev rowOf (A : (⟨2, ![16384, 1024]⟩ : Shape).Idx → EReal) (r : Fin 16384) : Fin 1024 → EReal := fun k => A (ix2 r k)

/-- A two-axis array as a function of its two coordinates. -/
abbrev mat {n0 n1 : Nat} (A : (⟨2, ![n0, n1]⟩ : Shape).Idx → EReal) : Fin n0 → Fin n1 → EReal := fun k n => A (ix2 k n)

/-- The one row of a 1 × n array. -/
abbrev vecOf {n : Nat} (A : (⟨2, ![1, n]⟩ : Shape).Idx → EReal) : Fin n → EReal := fun n' => A (ix2 0 n')

/-- The new cell array. -/
def cellArr (X H C : (⟨2, ![16384, 1024]⟩ : Shape).Idx → EReal) (K R : (⟨2, ![1024, 4096]⟩ : Shape).Idx → EReal)
    (b : (⟨2, ![1, 4096]⟩ : Shape).Idx → EReal) : (⟨2, ![16384, 1024]⟩ : Shape).Idx → EReal := fun i =>
  cellNew (rowOf X (i 0)) (rowOf H (i 0)) (rowOf C (i 0)) (mat K) (mat R) (vecOf b) (i 1)

/-- The new hidden array. -/
def hidArr (X H C : (⟨2, ![16384, 1024]⟩ : Shape).Idx → EReal) (K R : (⟨2, ![1024, 4096]⟩ : Shape).Idx → EReal)
    (b : (⟨2, ![1, 4096]⟩ : Shape).Idx → EReal) : (⟨2, ![16384, 1024]⟩ : Shape).Idx → EReal := fun i =>
  hidNew (rowOf X (i 0)) (rowOf H (i 0)) (rowOf C (i 0)) (mat K) (mat R) (vecOf b) (i 1)

/-- The output array; the classifier bias is a plain vector of 1024 entries. -/
def outArr (X H C : (⟨2, ![16384, 1024]⟩ : Shape).Idx → EReal) (K R : (⟨2, ![1024, 4096]⟩ : Shape).Idx → EReal)
    (b : (⟨2, ![1, 4096]⟩ : Shape).Idx → EReal) (W : (⟨2, ![1024, 1024]⟩ : Shape).Idx → EReal)
    (bc : (⟨1, ![1024]⟩ : Shape).Idx → EReal) : (⟨2, ![16384, 1024]⟩ : Shape).Idx → EReal := fun i =>
  outNew (rowOf X (i 0)) (rowOf H (i 0)) (rowOf C (i 0)) (mat K) (mat R) (vecOf b) (mat W) (fun n => bc (ix1 n)) (i 1)

end Cert.SubLstm

end
-- ==== Proof.RefRows.lean ====
/-
  The reference program's three results are the row-by-row sub-LSTM arrays.

  The reference computes all four gates at once as one 16384 × 4096 array
  σ(X·K + b + H·R) (the bias added before the recurrent projection), cuts it into four 1024-wide column bands,
  and combines the bands elementwise. Read at an index, the band at column offset `off` is the row specification's gate
  at that offset, so each result is the specification's array.
-/
import proofs.«112121_j46883863003217_1_alg».proof.Proof.Gen.ReferenceIdeal.Read
import proofs.«112121_j46883863003217_1_alg».proof.Proof.RowSpec

noncomputable section

namespace Cert.ReferenceIdeal.RefRows

open Cert.ReferenceIdeal Cert.ReferenceIdeal.Gen Cert.ReferenceIdeal.Read Cert.SubLstm
open Idealize.ShloMosaic Idealize.ShloMosaic.TcCoe Idealize.ShloMosaic.ValueIdx

variable (X H C : (⟨S16384x1024, .f32⟩ : BufTy).Contents (Elt Ideal))
variable (K R : (⟨S1024x4096, .f32⟩ : BufTy).Contents (Elt Ideal))
variable (b : (⟨S1x4096, .f32⟩ : BufTy).Contents (Elt Ideal))
variable (W : (⟨S1024x1024, .f32⟩ : BufTy).Contents (Elt Ideal))
variable (bc : (⟨S1024, .f32⟩ : BufTy).Contents (Elt Ideal))

/-- The all-gates array at row `r`, column `off + j`, is the gate at offset `off` of row `r`, feature `j`. -/
theorem gates_at (r : Fin 16384) (off : Nat) (hoff : off + 1024 ≤ 4096) (j : Fin 1024) :
    val_main_v10 (F := Ideal) X H K R b (ix2 r (col off hoff j))
      = gate off hoff (rowOf X r) (rowOf H r) (mat K) (mat R) (vecOf b) j := by
  rw [val_main_v10_apply, val_main_v9_apply, val_main_cst_0_apply, val_main_v8_apply, val_main_v7_apply,
    val_main_cst_apply, val_main_v6_apply, val_main_v5_apply, val_main_v4_apply, val_main_v2_apply,
    val_main_v0_apply, val_main_v1_apply, val_main_v3_apply]
  have el0 : ∀ k : Fin 1024, lidx_main_v0 (ix2 r (col off hoff j)) k = ix2 r k := fun k =>
    funext fun a => by match a with | ⟨0, _⟩ => rfl | ⟨1, _⟩ => rfl
  have er0 : ∀ k : Fin 1024, ridx_main_v0 (ix2 r (col off hoff j)) k = ix2 k (col off hoff j) := fun k =>
    funext fun a => by match a with | ⟨0, _⟩ => rfl | ⟨1, _⟩ => rfl
  have el3 : ∀ k : Fin 1024, lidx_main_v3 (ix2 r (col off hoff j)) k = ix2 r k := fun k =>
    funext fun a => by match a with | ⟨0, _⟩ => rfl | ⟨1, _⟩ => rfl
  have er3 : ∀ k : Fin 1024, ridx_main_v3 (ix2 r (col off hoff j)) k = ix2 k (col off hoff j) := fun k =>
    funext fun a => by match a with | ⟨0, _⟩ => rfl | ⟨1, _⟩ => rfl
  have eb : idx_main_v1 (ix2 r (col off hoff j)) = ix2 0 (col off hoff j) :=
    funext fun a => by match a with | ⟨0, _⟩ => rfl | ⟨1, _⟩ => rfl
  simp only [el0, er0, el3, er3, eb]
  exact (logistic_eq_div _).trans (gate_bias_first off hoff (rowOf X r) (rowOf H r) (mat K) (mat R) (vecOf b) j)

/-- The band cut at columns 0 … 1023 (the input gate) read at (r, q). -/
theorem band0 (r : Fin 16384) (q : Fin 1024) : idx_main_v11 (ix2 r q) = ix2 r (col 0 (by decide) q) :=
  funext fun a => by match a with | ⟨0, _⟩ => rfl | ⟨1, _⟩ => exact Fin.ext (Nat.zero_add _).symm
/-- The band at columns 1024 … 2047 (the forget gate). -/
theorem band1 (r : Fin 16384) (q : Fin 1024) : idx_main_v12 (ix2 r q) = ix2 r (col 1024 (by decide) q) :=
  funext fun a => by match a with | ⟨0, _⟩ => rfl | ⟨1, _⟩ => rfl
/-- The band at columns 2048 … 3071 (the candidate gate). -/
theorem band2 (r : Fin 16384) (q : Fin 1024) : idx_main_v13 (ix2 r q) = ix2 r (col 2048 (by decide) q) :=
  funext fun a => by match a with | ⟨0, _⟩ => rfl | ⟨1, _⟩ => rfl
/-- The band at columns 3072 … 4095 (the output gate). -/
theorem band3 (r : Fin 16384) (q : Fin 1024) : idx_main_v14 (ix2 r q) = ix2 r (col 3072 (by decide) q) :=
  funext fun a => by match a with | ⟨0, _⟩ => rfl | ⟨1, _⟩ => rfl

/-- The reference's new cell array: forget band times the old cell, plus the candidate band, minus the input band. -/
theorem cell_eq : val_main_v17 (F := Ideal) X H C K R b = cellArr X H C K R b := by
  funext i
  obtain ⟨r, q, rfl⟩ : ∃ (r : Fin 16384) (q : Fin 1024), i = ix2 r q := ⟨i 0, i 1, eq_ix2 i⟩
  rw [val_main_v17_apply, val_main_v16_apply, val_main_v15_apply, val_main_v12_apply, val_main_v13_apply,
    val_main_v11_apply, band0, band1, band2, gates_at, gates_at, gates_at]
  rfl

/-- The reference's new hidden array: the logistic function of the new cell, minus the output band. -/
theorem hid_eq : val_main_v24 (F := Ideal) X H C K R b = hidArr X H C K R b := by
  funext i
  obtain ⟨r, q, rfl⟩ : ∃ (r : Fin 16384) (q : Fin 1024), i = ix2 r q := ⟨i 0, i 1, eq_ix2 i⟩
  rw [val_main_v24_apply, val_main_v23_apply, val_main_v22_apply, val_main_cst_2_apply, val_main_v21_apply,
    val_main_v20_apply, val_main_cst_1_apply, val_main_v19_apply, val_main_v18_apply, val_main_v14_apply,
    cell_eq, band3, gates_at]
  exact congrArg (· - gate 3072 (by decide) (rowOf X r) (rowOf H r) (mat K) (mat R) (vecOf b) q) (logistic_eq_div _)

/-- The reference's output array: the new hidden row through the classifier weights, plus the bias vector. -/
theorem out_eq : val_main_v28 (F := Ideal) X H C K R b W bc = outArr X H C K R b W bc := by
  funext i
  obtain ⟨r, q, rfl⟩ : ∃ (r : Fin 16384) (q : Fin 1024), i = ix2 r q := ⟨i 0, i 1, eq_ix2 i⟩
  rw [val_main_v28_apply, val_main_v25_apply, val_main_v27_apply, val_main_v26_apply, hid_eq]
  have el : ∀ k : Fin 1024, lidx_main_v25 (ix2 r q) k = ix2 r k := fun k =>
    funext fun a => by match a with | ⟨0, _⟩ => rfl | ⟨1, _⟩ => rfl
  have er : ∀ k : Fin 1024, ridx_main_v25 (ix2 r q) k = ix2 k q := fun k =>
    funext fun a => by match a with | ⟨0, _⟩ => rfl | ⟨1, _⟩ => rfl
  have eb : idx_main_v26 (idx_main_v27 (ix2 r q)) = ix1 q :=
    funext fun a => by match a with | ⟨0, _⟩ => rfl
  simp only [el, er, eb]
  rfl

end Cert.ReferenceIdeal.RefRows

end
-- ==== Proof.KernelRow.lean ====
/-
  The kernel body's three stored values, read at an index of a 256-row block.

  The body handles one block of 256 batch rows. Each gate is the logistic function of two matrix products of the block's
  rows with one 1024-wide column band of the weight arrays, plus that band of the bias row. A matrix product into a zero
  accumulator is, over the extended reals, the plain sum over the contracted index; the change of float format before it
  is the identity; a cast to the same shape is the identity; a broadcast of a one-row vector reads that row. So entry
  (p, q) of each stored value is the row specification of row p of the block, at feature q.
-/
import proofs.«112121_j46883863003217_1_alg».proof.Proof.Gen.KernelIdeal.Frame
import proofs.«112121_j46883863003217_1_alg».proof.Proof.RowSpec
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Cert.SubLstm
open Idealize.ShloMosaic Idealize.ShloMosaic.TcCoe Idealize.ShloMosaic.ValueIdx

/-! ## The matrix product of a 256 × 1024 block with a 1024 × 1024 band -/

theorem lhs_axis0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_axis0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_axis1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (p, q) of the product into a zero accumulator: the sum over k of row p of the left factor times column q of
    the right. -/
theorem matmul_at (l : FVec Ideal S256x1024 .bf16) (r : FVec Ideal S1024x1024 .bf16) (p : Fin 256) (q : Fin 1024) :
    matmul dot_S256x1024_S1024x1024_S256x1024_1_0_0_1_n_n none l r (constant S256x1024 .f32 0x00000000#32) (ix2 p q)
      = ∑ k : Fin 1024, l (ix2 p k) * r (ix2 k q) := by
  show FloatOps.matmul dot_S256x1024_S1024x1024_S256x1024_1_0_0_1_n_n none l r (constant S256x1024 .f32 0x00000000#32) (ix2 p q) = _
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- A one-row vector broadcast down the 256 rows reads its entry q at (p, q). -/
theorem bcast_at (v : Vec Ideal S1x1024 .f32) (p : Fin 256) (q : Fin 1024) :
    broadcastTo S256x1024 v broadcasts_S1x1024_S256x1024 (ix2 p q) = v (ix2 0 q) :=
  broadcastTo_apply v broadcasts_S1x1024_S256x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

/-- One gate before the casts are opened: logistic of the two products plus the broadcast bias row, at (p, q). -/
theorem gate_at (l1 l2 : FVec Ideal S256x1024 .bf16) (r1 r2 : FVec Ideal S1024x1024 .bf16) (v : Vec Ideal S1x1024 .f32)
    (p : Fin 256) (q : Fin 1024) :
    logistic (addf (addf (matmul dot_S256x1024_S1024x1024_S256x1024_1_0_0_1_n_n none l1 r1 (constant S256x1024 .f32 0x00000000#32))
        (matmul dot_S256x1024_S1024x1024_S256x1024_1_0_0_1_n_n none l2 r2 (constant S256x1024 .f32 0x00000000#32)))
        (broadcastTo S256x1024 v broadcasts_S1x1024_S256x1024)) (ix2 p q)
      = Ideal.logistic ((∑ k : Fin 1024, l1 (ix2 p k) * r1 (ix2 k q)) + (∑ k : Fin 1024, l2 (ix2 p k) * r2 (ix2 k q)) + v (ix2 0 q)) := by
  show Ideal.logistic (matmul dot_S256x1024_S1024x1024_S256x1024_1_0_0_1_n_n none l1 r1 (constant S256x1024 .f32 0x00000000#32) (ix2 p q)
      + matmul dot_S256x1024_S1024x1024_S256x1024_1_0_0_1_n_n none l2 r2 (constant S256x1024 .f32 0x00000000#32) (ix2 p q)
      + broadcastTo S256x1024 v broadcasts_S1x1024_S256x1024 (ix2 p q)) = _
  rw [matmul_at, matmul_at, bcast_at]

/-! ## The loads of a column band -/

/-- A 1024 × 1024 band of a 1024 × 4096 array loaded at column offset `off`: entry (k, q) is the array's (k, off + q). -/
theorem ld_band (A : Vec Ideal S1024x4096 .bf16) (off : Nat) (hoff : off + 1024 ≤ 4096)
    (inb : ∀ a, (![0, off] : Fin 2 → Nat) a + S1024x1024.size a ≤ S1024x4096.size a) (k q : Fin 1024) :
    View.ld A (Rect.unit (s := S1024x4096) ![0, off] S1024x1024.size inb) (ix2 k q) = A (ix2 k (col off hoff q)) := by
  show A _ = A _
  congr 1
  funext a
  apply Fin.ext
  match a with
  | ⟨0, _⟩ => show 0 + 1 * k.val = k.val; omega
  | ⟨1, _⟩ => show off + 1 * q.val = off + q.val; omega

/-- The same band of the one-row bias array: entry (0, q) is the array's (0, off + q). -/
theorem ld_band_row (A : Vec Ideal S1x4096 .f32) (off : Nat) (hoff : off + 1024 ≤ 4096)
    (inb : ∀ a, (![0, off] : Fin 2 → Nat) a + S1x1024.size a ≤ S1x4096.size a) (q : Fin 1024) :
    View.ld A (Rect.unit (s := S1x4096) ![0, off] S1x1024.size inb) (ix2 0 q) = A (ix2 0 (col off hoff q)) := by
  show A _ = A _
  congr 1
  funext a
  apply Fin.ext
  match a with
  | ⟨0, _⟩ => show 0 + 1 * 0 = 0; omega
  | ⟨1, _⟩ => show off + 1 * q.val = off + q.val; omega

/-! ## The payloads at an index -/

/-- The input gate's payload. -/
theorem pay6_at (v0 v1 : Vec Ideal S256x1024 .f32) (v5 v7 : Vec Ideal S1024x1024 .bf16) (v9 : Vec Ideal S1x1024 .f32)
    (p : Fin 256) (q : Fin 1024) :
    k0_pay6 v0 v1 v5 v7 v9 (ix2 p q)
      = Ideal.logistic ((∑ k : Fin 1024, v0 (ix2 p k) * v5 (ix2 k q)) + (∑ k : Fin 1024, v1 (ix2 p k) * v7 (ix2 k q)) + v9 (ix2 0 q)) := by
  unfold k0_pay6
  simp only [shapeCast_self]
  exact gate_at (k0_pay4 v0) (k0_pay5 v1) v5 v7 v9 p q

/-- The forget gate's payload times the old cell block. -/
theorem pay7_at (v0 v1 v2 : Vec Ideal S256x1024 .f32) (v16 v18 : Vec Ideal S1024x1024 .bf16) (v20 : Vec Ideal S1x1024 .f32)
    (p : Fin 256) (q : Fin 1024) :
    k0_pay7 v0 v1 v2 v16 v18 v20 (ix2 p q)
      = Ideal.logistic ((∑ k : Fin 1024, v0 (ix2 p k) * v16 (ix2 k q)) + (∑ k : Fin 1024, v1 (ix2 p k) * v18 (ix2 k q)) + v20 (ix2 0 q))
        * v2 (ix2 p q) := by
  unfold k0_pay7
  simp only [shapeCast_self]
  exact congrArg (· * v2 (ix2 p q)) (gate_at (k0_pay4 v0) (k0_pay5 v1) v16 v18 v20 p q)

theorem pay8_eq (v28 : Vec Ideal S1024x1024 .bf16) : k0_pay8 v28 = v28 := by
  unfold k0_pay8; exact shapeCast_self _ _
theorem pay9_eq (v30 : Vec Ideal S1024x1024 .bf16) : k0_pay9 v30 = v30 := by
  unfold k0_pay9; exact shapeCast_self _ _

/-- The new cell's payload: forget-gate term plus the candidate gate minus the input gate. -/
theorem pay1_at (v3 v4 : FVec Ideal S256x1024 .bf16) (v15 v27 : FVec Ideal S256x1024 .f32) (v29 v31 : FVec Ideal S1024x1024 .bf16)
    (v32 : Vec Ideal S1x1024 .f32) (p : Fin 256) (q : Fin 1024) :
    k0_pay1 v3 v4 v15 v27 v29 v31 v32 (ix2 p q)
      = v27 (ix2 p q)
        + Ideal.logistic ((∑ k : Fin 1024, v3 (ix2 p k) * v29 (ix2 k q)) + (∑ k : Fin 1024, v4 (ix2 p k) * v31 (ix2 k q)) + v32 (ix2 0 q))
        - v15 (ix2 p q) := by
  unfold k0_pay1
  exact congrArg (fun z => v27 (ix2 p q) + z - v15 (ix2 p q)) (gate_at v3 v4 v29 v31 v32 p q)

/-- The new hidden state's payload: logistic of the new cell minus the output gate. -/
theorem pay2_at (v3 v4 : FVec Ideal S256x1024 .bf16) (v15 v27 : FVec Ideal S256x1024 .f32) (v29 v31 : FVec Ideal S1024x1024 .bf16)
    (v32 : Vec Ideal S1x1024 .f32) (v41 v43 : Vec Ideal S1024x1024 .bf16) (v45 : Vec Ideal S1x1024 .f32) (p : Fin 256) (q : Fin 1024) :
    k0_pay2 v3 v4 v15 v27 v29 v31 v32 v41 v43 v45 (ix2 p q)
      = Ideal.logistic (k0_pay1 v3 v4 v15 v27 v29 v31 v32 (ix2 p q))
        - Ideal.logistic ((∑ k : Fin 1024, v3 (ix2 p k) * v41 (ix2 k q)) + (∑ k : Fin 1024, v4 (ix2 p k) * v43 (ix2 k q)) + v45 (ix2 0 q)) := by
  unfold k0_pay2
  simp only [shapeCast_self]
  exact congrArg (fun z => Ideal.logistic (k0_pay1 v3 v4 v15 v27 v29 v31 v32 (ix2 p q)) - z) (gate_at v3 v4 v41 v43 v45 p q)

/-- The output's payload: the new hidden block through the classifier weights, plus the broadcast bias row. -/
theorem pay3_at (v3 v4 : FVec Ideal S256x1024 .bf16) (v15 v27 : FVec Ideal S256x1024 .f32) (v29 v31 : FVec Ideal S1024x1024 .bf16)
    (v32 : Vec Ideal S1x1024 .f32) (v41 v43 : Vec Ideal S1024x1024 .bf16) (v45 : Vec Ideal S1x1024 .f32)
    (v55 : Vec Ideal S1024x1024 .bf16) (v58 : Vec Ideal S1x1024 .f32) (p : Fin 256) (q : Fin 1024) :
    k0_pay3 v3 v4 v15 v27 v29 v31 v32 v41 v43 v45 v55 v58 (ix2 p q)
      = (∑ k : Fin 1024, k0_pay2 v3 v4 v15 v27 v29 v31 v32 v41 v43 v45 (ix2 p k) * v55 (ix2 k q)) + v58 (ix2 0 q) := by
  unfold k0_pay3
  simp only [shapeCast_self]
  show matmul dot_S256x1024_S1024x1024_S256x1024_1_0_0_1_n_n none (truncf .bf16 (k0_pay2 v3 v4 v15 v27 v29 v31 v32 v41 v43 v45) bitsLt_bf16_f32) v55
      (constant S256x1024 .f32 0x00000000#32) (ix2 p q) + broadcastTo S256x1024 v58 broadcasts_S1x1024_S256x1024 (ix2 p q) = _
  rw [matmul_at, bcast_at]
  rfl

/-! ## The stored values as the row specification of the loaded blocks -/

theorem hz : (![0, 0] : Fin 2 → Nat) = fun _ => 0 := funext fun a => by fin_cases a <;> rfl

/-- Row `p` of a 256-row block. -/
abbrev rowB (B : Vec Ideal S256x1024 .f32) (p : Fin 256) : Fin 1024 → EReal := fun k => B (ix2 p k)

/-- What the body stores to the new-cell block, at (p, q): the new cell of row p of the data blocks. -/
theorem cell_pay (x0 x1 x2 : Vec Ideal S256x1024 .f32) (x3 : Vec Ideal S1x4096 .f32) (x5 x6 : Vec Ideal S1024x4096 .bf16)
    (p : Fin 256) (q : Fin 1024) :
    k0_pay1 (k0_pay4 (View.ld x0 r0_0)) (k0_pay5 (View.ld x1 r0_0)) (k0_pay6 (View.ld x0 r0_0) (View.ld x1 r0_0) (View.ld x5 r0_1) (View.ld x6 r0_1) (View.ld x3 r0_2)) (k0_pay7 (View.ld x0 r0_0) (View.ld x1 r0_0) (View.ld x2 r0_0) (View.ld x5 r0_3) (View.ld x6 r0_3) (View.ld x3 r0_4)) (k0_pay8 (View.ld x5 r0_5)) (k0_pay9 (View.ld x6 r0_5)) (View.ld x3 r0_6) (ix2 p q)
      = cellNew (rowB x0 p) (rowB x1 p) (rowB x2 p) (mat x5) (mat x6) (vecOf x3) q := by
  simp only [View.ld_unit_zero (S := S256x1024) hz]
  rw [pay1_at, pay6_at, pay7_at, pay8_eq, pay9_eq]
  simp only [ld_band x5 0 (by decide) inb_S1024x4096_S1024x1024_0_0, ld_band x6 0 (by decide) inb_S1024x4096_S1024x1024_0_0,
    ld_band x5 1024 (by decide) inb_S1024x4096_S1024x1024_0_1024, ld_band x6 1024 (by decide) inb_S1024x4096_S1024x1024_0_1024,
    ld_band x5 2048 (by decide) inb_S1024x4096_S1024x1024_0_2048, ld_band x6 2048 (by decide) inb_S1024x4096_S1024x1024_0_2048,
    ld_band_row x3 0 (by decide) inb_S1x4096_S1x1024_0_0, ld_band_row x3 1024 (by decide) inb_S1x4096_S1x1024_0_1024,
    ld_band_row x3 2048 (by decide) inb_S1x4096_S1x1024_0_2048]
  rfl

/-- What the body stores to the new-hidden block, at (p, q). -/
theorem hid_pay (x0 x1 x2 : Vec Ideal S256x1024 .f32) (x3 : Vec Ideal S1x4096 .f32) (x5 x6 : Vec Ideal S1024x4096 .bf16)
    (p : Fin 256) (q : Fin 1024) :
    k0_pay2 (k0_pay4 (View.ld x0 r0_0)) (k0_pay5 (View.ld x1 r0_0)) (k0_pay6 (View.ld x0 r0_0) (View.ld x1 r0_0) (View.ld x5 r0_1) (View.ld x6 r0_1) (View.ld x3 r0_2)) (k0_pay7 (View.ld x0 r0_0) (View.ld x1 r0_0) (View.ld x2 r0_0) (View.ld x5 r0_3) (View.ld x6 r0_3) (View.ld x3 r0_4)) (k0_pay8 (View.ld x5 r0_5)) (k0_pay9 (View.ld x6 r0_5)) (View.ld x3 r0_6) (View.ld x5 r0_7) (View.ld x6 r0_7) (View.ld x3 r0_8) (ix2 p q)
      = hidNew (rowB x0 p) (rowB x1 p) (rowB x2 p) (mat x5) (mat x6) (vecOf x3) q := by
  rw [pay2_at, cell_pay]
  simp only [View.ld_unit_zero (S := S256x1024) hz]
  simp only [ld_band x5 3072 (by decide) inb_S1024x4096_S1024x1024_0_3072, ld_band x6 3072 (by decide) inb_S1024x4096_S1024x1024_0_3072,
    ld_band_row x3 3072 (by decide) inb_S1x4096_S1x1024_0_3072]
  rfl

/-- The classifier weights' buffer is loaded whole. -/
theorem ld_whole_w (A : Vec Ideal S1024x1024 .bf16) : View.ld A r0_9 = A := View.ld_unit_zero (S := S1024x1024) hz _ A
/-- The classifier bias row is loaded whole. -/
theorem ld_whole_b (A : Vec Ideal S1x1024 .f32) : View.ld A r0_10 = A := View.ld_unit_zero (S := S1x1024) hz _ A

/-- What the body stores to the output block, at (p, q). -/
theorem out_pay (x0 x1 x2 : Vec Ideal S256x1024 .f32) (x3 : Vec Ideal S1x4096 .f32) (x4 : Vec Ideal S1x1024 .f32)
    (x5 x6 : Vec Ideal S1024x4096 .bf16) (x7 : Vec Ideal S1024x1024 .bf16) (p : Fin 256) (q : Fin 1024) :
    k0_pay3 (k0_pay4 (View.ld x0 r0_0)) (k0_pay5 (View.ld x1 r0_0)) (k0_pay6 (View.ld x0 r0_0) (View.ld x1 r0_0) (View.ld x5 r0_1) (View.ld x6 r0_1) (View.ld x3 r0_2)) (k0_pay7 (View.ld x0 r0_0) (View.ld x1 r0_0) (View.ld x2 r0_0) (View.ld x5 r0_3) (View.ld x6 r0_3) (View.ld x3 r0_4)) (k0_pay8 (View.ld x5 r0_5)) (k0_pay9 (View.ld x6 r0_5)) (View.ld x3 r0_6) (View.ld x5 r0_7) (View.ld x6 r0_7) (View.ld x3 r0_8) (View.ld x7 r0_9) (View.ld x4 r0_10) (ix2 p q)
      = outNew (rowB x0 p) (rowB x1 p) (rowB x2 p) (mat x5) (mat x6) (vecOf x3) (mat x7) (vecOf x4) q := by
  rw [ld_whole_w x7, ld_whole_b x4, pay3_at]
  simp only [hid_pay]
  rfl

end Cert.KernelIdeal.Rows

end
-- ==== Proof.KernelBlocks.lean ====
/-
  From blocks to arrays: what the kernel leaves in its three result arrays.

  The grid has 64 points; point t handles batch rows 256 t … 256 t + 255. The three data windows and the three result
  windows all move with t along the rows (block index (t, 0)); the bias, the classifier bias row and the three weight
  windows stay at block (0, 0), the whole array. So row p of a data block at point t is row 256 t + p of its array,
  entry (p, q) of a result block is entry (256 t + p, q) of the result array, and by the body's value at an index
  (the row specification of the block's row) each point writes back exactly its block of ONE whole-array function:
  the specification's array. The 64 blocks cover the 16384 rows, so each result array ends holding that function.
  The weight arrays the region finds were narrowed to bf16 by host operations before it, and the classifier bias
  reshaped to one row; over the extended reals the first is the identity and the second a relabelling of indices.
-/
import proofs.«112121_j46883863003217_1_alg».proof.Proof.Gen.KernelIdeal.Value
import proofs.«112121_j46883863003217_1_alg».proof.Proof.KernelRow
import Idealize.ShloMosaic.Lib.StableHlo.Run

set_option maxRecDepth 16384

noncomputable section

namespace Cert.KernelIdeal.Blocks

open Cert.KernelIdeal Cert.KernelIdeal.Gen Cert.KernelIdeal.Rows Cert.SubLstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the 64 grid points: data and result windows at block (t, 0), the rest at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The array row that row `p` of grid point `t`'s block is: 256 t + p. -/
def rowIx (t : Fin cfg0.N) (p : Fin 256) : Fin 16384 :=
  ⟨256 * t.val + p.val, by have ht : t.val < grid0.N := t.isLt; rw [N_0] at ht; have := p.isLt; omega⟩

/-! ## The input windows' blocks read off their arrays -/

/-- Row `p` of the input block at point `t` is row 256 t + p of the input array. -/
theorem in_row0 (c : Dev nD) (t : Fin cfg0.N) (p : Fin 256) :
    rowB (iblk m c 0 t) p = rowOf (V m c main_arg0) (rowIx t p) := by
  obtain ⟨e0, e1, -⟩ := idx_facts t
  funext k
  show V m c main_arg0 (((cfg0.win 0).blk t).view.emb (ix2 p k)) = V m c main_arg0 (ix2 (rowIx t p) k)
  congr 1
  funext a
  apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

/-- Row `p` of the hidden-state block at point `t` is row 256 t + p of the hidden-state array. -/
theorem in_row1 (c : Dev nD) (t : Fin cfg0.N) (p : Fin 256) :
    rowB (iblk m c 1 t) p = rowOf (V m c main_arg1) (rowIx t p) := by
  obtain ⟨-, -, e0, e1, -⟩ := idx_facts t
  funext k
  show V m c main_arg1 (((cfg0.win 1).blk t).view.emb (ix2 p k)) = V m c main_arg1 (ix2 (rowIx t p) k)
  congr 1
  funext a
  apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

/-- Row `p` of the cell-state block at point `t` is row 256 t + p of the cell-state array. -/
theorem in_row2 (c : Dev nD) (t : Fin cfg0.N) (p : Fin 256) :
    rowB (iblk m c 2 t) p = rowOf (V m c main_arg2) (rowIx t p) := by
  obtain ⟨-, -, -, -, e0, e1, -⟩ := idx_facts t
  funext k
  show V m c main_arg2 (((cfg0.win 2).blk t).view.emb (ix2 p k)) = V m c main_arg2 (ix2 (rowIx t p) k)
  congr 1
  funext a
  apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

/-- The input-weight window holds its whole array at every point. -/
theorem in_w5 (c : Dev nD) (t : Fin cfg0.N) : mat (iblk m c 5 t) = mat (V m c main_v0) := by
  obtain ⟨-, -, -, -, -, -, -, -, -, -, e0, e1, -⟩ := idx_facts t
  funext k n
  show V m c main_v0 (((cfg0.win 5).blk t).view.emb (ix2 k n)) = V m c main_v0 (ix2 k n)
  congr 1
  funext a
  apply Fin.ext
  match a with
  | ⟨0, _⟩ => show win0_5.index t (0 : Fin 2) * 1024 + 1 * k.val = k.val; omega
  | ⟨1, _⟩ => show win0_5.index t (1 : Fin 2) * 4096 + 1 * n.val = n.val; omega

/-- The recurrent-weight window holds its whole array at every point. -/
theorem in_w6 (c : Dev nD) (t : Fin cfg0.N) : mat (iblk m c 6 t) = mat (V m c main_v1) := by
  obtain ⟨-, -, -, -, -, -, -, -, -, -, -, -, e0, e1, -⟩ := idx_facts t
  funext k n
  show V m c main_v1 (((cfg0.win 6).blk t).view.emb (ix2 k n)) = V m c main_v1 (ix2 k n)
  congr 1
  funext a
  apply Fin.ext
  match a with
  | ⟨0, _⟩ => show win0_6.index t (0 : Fin 2) * 1024 + 1 * k.val = k.val; omega
  | ⟨1, _⟩ => show win0_6.index t (1 : Fin 2) * 4096 + 1 * n.val = n.val; omega

/-- The classifier-weight window holds its whole array at every point. -/
theorem in_w7 (c : Dev nD) (t : Fin cfg0.N) : mat (iblk m c 7 t) = mat (V m c main_v2) := by
  obtain ⟨-, -, -, -, -, -, -, -, -, -, -, -, -, -, e0, e1, -⟩ := idx_facts t
  funext k n
  show V m c main_v2 (((cfg0.win 7).blk t).view.emb (ix2 k n)) = V m c main_v2 (ix2 k n)
  congr 1
  funext a
  apply Fin.ext
  match a with
  | ⟨0, _⟩ => show win0_7.index t (0 : Fin 2) * 1024 + 1 * k.val = k.val; omega
  | ⟨1, _⟩ => show win0_7.index t (1 : Fin 2) * 1024 + 1 * n.val = n.val; omega

/-- The gate-bias window holds its whole one-row array at every point. -/
theorem in_w3 (c : Dev nD) (t : Fin cfg0.N) : vecOf (iblk m c 3 t) = vecOf (V m c main_arg5) := by
  obtain ⟨-, -, -, -, -, -, e0, e1, -⟩ := idx_facts t
  funext n
  show V m c main_arg5 (((cfg0.win 3).blk t).view.emb (ix2 0 n)) = V m c main_arg5 (ix2 0 n)
  congr 1
  funext a
  apply Fin.ext
  match a with
  | ⟨0, _⟩ => show win0_3.index t (0 : Fin 2) * 1 + 1 * 0 = 0; omega
  | ⟨1, _⟩ => show win0_3.index t (1 : Fin 2) * 4096 + 1 * n.val = n.val; omega

/-- The classifier-bias window holds its whole one-row array at every point. -/
theorem in_w4 (c : Dev nD) (t : Fin cfg0.N) : vecOf (iblk m c 4 t) = vecOf (V m c main_v3) := by
  obtain ⟨-, -, -, -, -, -, -, -, e0, e1, -⟩ := idx_facts t
  funext n
  show V m c main_v3 (((cfg0.win 4).blk t).view.emb (ix2 0 n)) = V m c main_v3 (ix2 0 n)
  congr 1
  funext a
  apply Fin.ext
  match a with
  | ⟨0, _⟩ => show win0_4.index t (0 : Fin 2) * 1 + 1 * 0 = 0; omega
  | ⟨1, _⟩ => show win0_4.index t (1 : Fin 2) * 1024 + 1 * n.val = n.val; omega

/-! ## The arrays host operations wrote before the region -/

/-- The narrowed input weights are the input-weight argument: narrowing is the identity on extended reals. -/
theorem V_v0 (c : Dev nD) : (V m c main_v0 : S1024x4096.Idx → EReal) = (m ((c : Thread nD τ).loc main_arg3) : S1024x4096.Idx → EReal) := by
  dsimp only [V, hostOps0]; after_results; rfl

/-- The narrowed recurrent weights are the recurrent-weight argument. -/
theorem V_v1 (c : Dev nD) : (V m c main_v1 : S1024x4096.Idx → EReal) = (m ((c : Thread nD τ).loc main_arg4) : S1024x4096.Idx → EReal) := by
  dsimp only [V, hostOps0]; after_results; rfl

/-- The narrowed classifier weights are the classifier-weight argument. -/
theorem V_v2 (c : Dev nD) : (V m c main_v2 : S1024x1024.Idx → EReal) = (m ((c : Thread nD τ).loc main_arg6) : S1024x1024.Idx → EReal) := by
  dsimp only [V, hostOps0]; after_results; rfl

/-- The classifier bias reshaped to one row: entry (0, n) is entry n of the bias argument. -/
theorem V_v3 (c : Dev nD) : vecOf (V m c main_v3) = fun n : Fin 1024 => (m ((c : Thread nD τ).loc main_arg7) : S1024.Idx → EReal) (ix1 n) := by
  have e : (V m c main_v3 : S1x1024.Idx → EReal) = shapeCast S1x1024 (m ((c : Thread nD τ).loc main_arg7) : S1024.Idx → EReal) shapeCasts_S1024_S1x1024 := by
    dsimp only [V, hostOps0]; after_results; rfl
  funext n
  show V m c main_v3 (ix2 0 n) = _
  rw [e]
  exact shapeCast_apply _ shapeCasts_S1024_S1x1024 (ix2 0 n) (ix1 n) (by
    rw [Shape.rowMajor_val_one, Shape.rowMajor_val_two]; show n.val = 0 * 1024 + n.val; omega)

/-! ## The result windows: where a block sits in its array, and that the blocks cover it -/

/-- Entry (p, q) of the output block at point `t` is entry (256 t + p, q) of the output array. -/
theorem out_emb8 (t : Fin cfg0.N) (p : Fin 256) (q : Fin 1024) :
    ((cfg0.win 8).blk t).view.emb (ix2 p q) = ix2 (rowIx t p) q := by
  obtain ⟨-, -, -, -, -, -, -, -, -, -, -, -, -, -, -, -, e0, e1, -⟩ := idx_facts t
  funext a
  apply Fin.ext
  match a with
  | ⟨0, _⟩ => show win0_8.index t (0 : Fin 2) * 256 + 1 * p.val = 256 * t.val + p.val; omega
  | ⟨1, _⟩ => show win0_8.index t (1 : Fin 2) * 1024 + 1 * q.val = q.val; omega

/-- Entry (p, q) of the new-hidden block at point `t` is entry (256 t + p, q) of the new-hidden array. -/
theorem out_emb9 (t : Fin cfg0.N) (p : Fin 256) (q : Fin 1024) :
    ((cfg0.win 9).blk t).view.emb (ix2 p q) = ix2 (rowIx t p) q := by
  obtain ⟨-, -, -, -, -, -, -, -, -, -, -, -, -, -, -, -, -, -, e0, e1, -⟩ := idx_facts t
  funext a
  apply Fin.ext
  match a with
  | ⟨0, _⟩ => show win0_9.index t (0 : Fin 2) * 256 + 1 * p.val = 256 * t.val + p.val; omega
  | ⟨1, _⟩ => show win0_9.index t (1 : Fin 2) * 1024 + 1 * q.val = q.val; omega

/-- Entry (p, q) of the new-cell block at point `t` is entry (256 t + p, q) of the new-cell array. -/
theorem out_emb10 (t : Fin cfg0.N) (p : Fin 256) (q : Fin 1024) :
    ((cfg0.win 10).blk t).view.emb (ix2 p q) = ix2 (rowIx t p) q := by
  obtain ⟨-, -, -, -, -, -, -, -, -, -, -, -, -, -, -, -, -, -, -, -, e0, e1⟩ := idx_facts t
  funext a
  apply Fin.ext
  match a with
  | ⟨0, _⟩ => show win0_10.index t (0 : Fin 2) * 256 + 1 * p.val = 256 * t.val + p.val; omega
  | ⟨1, _⟩ => show win0_10.index t (1 : Fin 2) * 1024 + 1 * q.val = q.val; omega

/-- An index of the output array is in point `t`'s block iff each coordinate is in the block's range on its axis. -/
theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v4_0).slice (win0_8.rect t)).set ↔ _
  rw [View.set_slice_whole, Rect.mem_set_unit]
  exact Iff.rfl

/-- The same for the new-hidden array. -/
theorem mem_blk9 (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v4_1).slice (win0_9.rect t)).set ↔ _
  rw [View.set_slice_whole, Rect.mem_set_unit]
  exact Iff.rfl

/-- The same for the new-cell array. -/
theorem mem_blk10 (t : Fin cfg0.N) (i : S16384x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v4_2).slice (win0_10.rect t)).set ↔ _
  rw [View.set_slice_whole, Rect.mem_set_unit]
  exact Iff.rfl

/-- Every index of the output array lies in the block of the point that handles its row: point (row / 256). -/
theorem cover8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have hN : (i 0).val / 256 < cfg0.N := by show _ < grid0.N; rw [N_0]; omega
  obtain ⟨-, -, -, -, -, -, -, -, -, -, -, -, -, -, -, -, e0, e1, -⟩ := idx_facts ⟨(i 0).val / 256, hN⟩
  refine ⟨⟨(i 0).val / 256, hN⟩, flush0_8 _, ?_⟩
  rw [mem_blk8]
  intro a
  match a with
  | ⟨0, _⟩ =>
    show win0_8.index ⟨(i 0).val / 256, hN⟩ (0 : Fin 2) * 256 ≤ (i 0).val ∧ (i 0).val < win0_8.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, hN⟩ (1 : Fin 2) * 1024 ≤ (i 1).val ∧ (i 1).val < win0_8.index ⟨(i 0).val / 256, hN⟩ (1 : Fin 2) * 1024 + 1024
    rw [e1]; omega

/-- The same for the new-hidden array. -/
theorem cover9 (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have hN : (i 0).val / 256 < cfg0.N := by show _ < grid0.N; rw [N_0]; omega
  obtain ⟨-, -, -, -, -, -, -, -, -, -, -, -, -, -, -, -, -, -, e0, e1, -⟩ := idx_facts ⟨(i 0).val / 256, hN⟩
  refine ⟨⟨(i 0).val / 256, hN⟩, flush0_9 _, ?_⟩
  rw [mem_blk9]
  intro a
  match a with
  | ⟨0, _⟩ =>
    show win0_9.index ⟨(i 0).val / 256, hN⟩ (0 : Fin 2) * 256 ≤ (i 0).val ∧ (i 0).val < win0_9.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, hN⟩ (1 : Fin 2) * 1024 ≤ (i 1).val ∧ (i 1).val < win0_9.index ⟨(i 0).val / 256, hN⟩ (1 : Fin 2) * 1024 + 1024
    rw [e1]; omega

/-- The same for the new-cell array. -/
theorem cover10 (i : S16384x1024.Idx) :
    ∃ t : Fin cfg0.N, (cfg0.win 10).flush t = true ∧ i ∈ ((cfg0.win 10).blk t).view.set := by
  have hi0 : (i 0).val < 16384 := (i 0).isLt
  have hi1 : (i 1).val < 1024 := (i 1).isLt
  have hN : (i 0).val / 256 < cfg0.N := by show _ < grid0.N; rw [N_0]; omega
  obtain ⟨-, -, -, -, -, -, -, -, -, -, -, -, -, -, -, -, -, -, -, -, e0, e1⟩ := idx_facts ⟨(i 0).val / 256, hN⟩
  refine ⟨⟨(i 0).val / 256, hN⟩, flush0_10 _, ?_⟩
  rw [mem_blk10]
  intro a
  match a with
  | ⟨0, _⟩ =>
    show win0_10.index ⟨(i 0).val / 256, hN⟩ (0 : Fin 2) * 256 ≤ (i 0).val ∧ (i 0).val < win0_10.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_10.index ⟨(i 0).val / 256, hN⟩ (1 : Fin 2) * 1024 ≤ (i 1).val ∧ (i 1).val < win0_10.index ⟨(i 0).val / 256, hN⟩ (1 : Fin 2) * 1024 + 1024
    rw [e1]; omega

/-! ## What each point writes back -/

/-- The output array with the classifier bias given as a one-row array, as the region finds it. -/
def outArrB (X H C : (⟨2, ![16384, 1024]⟩ : Shape).Idx → EReal) (K R : (⟨2, ![1024, 4096]⟩ : Shape).Idx → EReal)
    (b : (⟨2, ![1, 4096]⟩ : Shape).Idx → EReal) (W : (⟨2, ![1024, 1024]⟩ : Shape).Idx → EReal)
    (bc : (⟨2, ![1, 1024]⟩ : Shape).Idx → EReal) : (⟨2, ![16384, 1024]⟩ : Shape).Idx → EReal := fun i =>
  outNew (rowOf X (i 0)) (rowOf H (i 0)) (rowOf C (i 0)) (mat K) (mat R) (vecOf b) (mat W) (vecOf bc) (i 1)

/-- Point `t` writes back its block of the specification's new-cell array. -/
theorem flushed10_eq (c : Dev nD) (t : Fin cfg0.N) :
    (dats m 0 c).flushed 10 t = ((cfg0.win 10).blk t).view.read (Elt Ideal)
      (cellArr (V m c main_arg0) (V m c main_arg1) (V m c main_arg2) (V m c main_v0) (V m c main_v1) (V m c main_arg5)) := by
  rw [Value.flushed10]
  unfold out0_10
  rw [View.canon_unit_zero hz]
  funext j
  obtain ⟨p, q, rfl⟩ : ∃ (p : Fin 256) (q : Fin 1024), j = ix2 p q := ⟨j 0, j 1, eq_ix2 j⟩
  refine (cell_pay (iblk m c 0 t) (iblk m c 1 t) (iblk m c 2 t) (iblk m c 3 t) (iblk m c 5 t) (iblk m c 6 t) p q).trans ?_
  rw [View.read_apply, out_emb10, in_row0, in_row1, in_row2, in_w5, in_w6, in_w3]
  rfl

/-- Point `t` writes back its block of the specification's new-hidden array. -/
theorem flushed9_eq (c : Dev nD) (t : Fin cfg0.N) :
    (dats m 0 c).flushed 9 t = ((cfg0.win 9).blk t).view.read (Elt Ideal)
      (hidArr (V m c main_arg0) (V m c main_arg1) (V m c main_arg2) (V m c main_v0) (V m c main_v1) (V m c main_arg5)) := by
  rw [Value.flushed9]
  unfold out0_9
  rw [View.canon_unit_zero hz]
  funext j
  obtain ⟨p, q, rfl⟩ : ∃ (p : Fin 256) (q : Fin 1024), j = ix2 p q := ⟨j 0, j 1, eq_ix2 j⟩
  refine (hid_pay (iblk m c 0 t) (iblk m c 1 t) (iblk m c 2 t) (iblk m c 3 t) (iblk m c 5 t) (iblk m c 6 t) p q).trans ?_
  rw [View.read_apply, out_emb9, in_row0, in_row1, in_row2, in_w5, in_w6, in_w3]
  rfl

/-- Point `t` writes back its block of the specification's output array. -/
theorem flushed8_eq (c : Dev nD) (t : Fin cfg0.N) :
    (dats m 0 c).flushed 8 t = ((cfg0.win 8).blk t).view.read (Elt Ideal)
      (outArrB (V m c main_arg0) (V m c main_arg1) (V m c main_arg2) (V m c main_v0) (V m c main_v1) (V m c main_arg5) (V m c main_v2) (V m c main_v3)) := by
  rw [Value.flushed8]
  unfold out0_8
  rw [View.canon_unit_zero hz]
  funext j
  obtain ⟨p, q, rfl⟩ : ∃ (p : Fin 256) (q : Fin 1024), j = ix2 p q := ⟨j 0, j 1, eq_ix2 j⟩
  refine (out_pay (iblk m c 0 t) (iblk m c 1 t) (iblk m c 2 t) (iblk m c 3 t) (iblk m c 4 t) (iblk m c 5 t) (iblk m c 6 t) (iblk m c 7 t) p q).trans ?_
  rw [View.read_apply, out_emb8, in_row0, in_row1, in_row2, in_w5, in_w6, in_w3, in_w7, in_w4]
  rfl

/-! ## The result arrays after the run, over the argument arrays -/

/-- The new-cell array after the run. -/
theorem final10 (c : Dev nD) : (dats m 0 c).arrAt 10 cfg0.N
    = cellArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [(dats m 0 c).arrAt_eq_of_cover 10 _ (fun t _ => flushed10_eq m c t) cover10, V_main_arg0, V_main_arg1, V_main_arg2,
    V_main_arg5, V_v0, V_v1]

/-- The new-hidden array after the run. -/
theorem final9 (c : Dev nD) : (dats m 0 c).arrAt 9 cfg0.N
    = hidArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [(dats m 0 c).arrAt_eq_of_cover 9 _ (fun t _ => flushed9_eq m c t) cover9, V_main_arg0, V_main_arg1, V_main_arg2,
    V_main_arg5, V_v0, V_v1]

/-- The output array after the run. -/
theorem final8 (c : Dev nD) : (dats m 0 c).arrAt 8 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [(dats m 0 c).arrAt_eq_of_cover 8 _ (fun t _ => flushed8_eq m c t) cover8]
  unfold outArrB outArr
  rw [V_v3, V_main_arg0, V_main_arg1, V_main_arg2, V_main_arg5, V_v0, V_v1, V_v2]

/-- The kernel's run: every weakly fair execution ends with the three result arrays at the specification's arrays of the
    argument arrays, the arguments unchanged. -/
theorem run : θ_run defs (onTc (τ := τ) (main (F := Ideal))) ⟨m, fun _ => 0, ρ⟩ fun r => ∀ c : Dev nD,
      r.2.mem ((c : Thread nD τ).loc main_v4_0)
        = outArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_v4_1)
        = hidArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v4_2)
        = cellArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2.1.trans (final10 m c), (h c).2.2.2⟩)
    (Value.run_blocks m ρ)

end Cert.KernelIdeal.Blocks

end
-- ==== Proof.lean ====
/-
  A fused sub-LSTM cell with a classifier layer, tiled over 256-row blocks of the batch, against its plain jnp reference.

  Both programs compute, for every batch row with input row x, hidden row h and cell row c,

      gates   i, f, g, o  =  σ( x·K + h·R + b )   cut into four 1024-wide column bands,   σ y = 1 / (1 + e^(−y)),
      c'  =  f · c + g − i,        h'  =  σ(c') − o,        y  =  h'·W + bc,

  and return (y, h', c'). The kernel does this one 256-row block at a time, one gate band at a time, on weights narrowed
  to bf16, and adds the bias after the recurrent projection; the reference computes the whole 16384 × 4096 gate array
  at once, adding the bias before the recurrent projection, and then slices it.

  Over the extended reals a change of float format is the identity, the logistic operation IS 1 / (1 + e^(−y)), a matrix
  product into a zero accumulator is the sum over the contracted index, slicing a product's columns is the product with
  the sliced columns, and (a + b) + c = (a + c) + b; no distributivity or cancellation is used, so the finiteness of the
  inputs is never needed. Every result row depends only on the same row of the data arrays, so both sides are read
  into ONE row-by-row specification (Proof/RowSpec.lean): the reference operation by operation (Proof/RefRows.lean), the
  kernel from what its body stores at an index of a block (Proof/KernelRow.lean) and from the 64 blocks covering the
  16384 rows (Proof/KernelBlocks.lean). The idealization rewrote nothing, so the preservation claim has no conjunct.
-/
import proofs.«112121_j46883863003217_1_alg».proof.Defs
import proofs.«112121_j46883863003217_1_alg».proof.Proof.Gen.Kernel
import proofs.«112121_j46883863003217_1_alg».proof.Proof.Gen.Kernel.Skeleton
import proofs.«112121_j46883863003217_1_alg».proof.Proof.Gen.Kernel.Launch
import proofs.«112121_j46883863003217_1_alg».proof.Proof.Gen.Kernel.Points
import proofs.«112121_j46883863003217_1_alg».proof.Proof.Gen.Kernel.Frame
import proofs.«112121_j46883863003217_1_alg».proof.Proof.Gen.KernelIdeal
import proofs.«112121_j46883863003217_1_alg».proof.Proof.Gen.KernelIdeal.Skeleton
import proofs.«112121_j46883863003217_1_alg».proof.Proof.Gen.KernelIdeal.Launch
import proofs.«112121_j46883863003217_1_alg».proof.Proof.Gen.KernelIdeal.Points
import proofs.«112121_j46883863003217_1_alg».proof.Proof.Gen.KernelIdeal.Frame
import proofs.«112121_j46883863003217_1_alg».proof.Proof.Gen.ReferenceIdeal
import proofs.«112121_j46883863003217_1_alg».proof.Proof.Gen.Pre_finite_inputs
import proofs.«112121_j46883863003217_1_alg».proof.Proof.Gen.KernelIdeal.Value
import proofs.«112121_j46883863003217_1_alg».proof.Proof.Gen.ReferenceIdeal.Run
import proofs.«112121_j46883863003217_1_alg».proof.Proof.Gen.ReferenceIdeal.Read
import proofs.«112121_j46883863003217_1_alg».proof.Proof.RowSpec
import proofs.«112121_j46883863003217_1_alg».proof.Proof.RefRows
import proofs.«112121_j46883863003217_1_alg».proof.Proof.KernelRow
import proofs.«112121_j46883863003217_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, both programs end with the specification's three arrays of those arguments. -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v28_eq, Cert.ReferenceIdeal.RefRows.out_eq, (hagree c).1, (hagree c).2.1, (hagree c).2.2.1,
      (hagree c).2.2.2.1, (hagree c).2.2.2.2.1, (hagree c).2.2.2.2.2.1, (hagree c).2.2.2.2.2.2.1, (hagree c).2.2.2.2.2.2.2]
  · rw [Cert.ReferenceIdeal.Read.val_main_v24_eq, Cert.ReferenceIdeal.RefRows.hid_eq, (hagree c).1, (hagree c).2.1, (hagree c).2.2.1,
      (hagree c).2.2.2.1, (hagree c).2.2.2.2.1, (hagree c).2.2.2.2.2.1]
  · rw [Cert.ReferenceIdeal.Read.val_main_v17_eq, Cert.ReferenceIdeal.RefRows.cell_eq, (hagree c).1, (hagree c).2.1, (hagree c).2.2.1,
      (hagree c).2.2.2.1, (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
